-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x36x1024 : Shape := ⟨3, ![4096, 36, 1024]⟩
abbrev S4096x32x1024 : Shape := ⟨3, ![4096, 32, 1024]⟩
abbrev S4096 : Shape := ⟨1, ![4096]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S4096x36x1024 : S_.BroadcastsInDim S4096x36x1024 (![] : Fin 0 → Fin S4096x36x1024.rank)
  reducesTo_S4096x36x1024_S_d0_1_2 : S4096x36x1024.ReducesTo [0, 1, 2] S_
  h_S_ : 0 < S_.numel
  bcast_S_S4096x32x1024 : S_.BroadcastsInDim S4096x32x1024 (![] : Fin 0 → Fin S4096x32x1024.rank)
  reducesTo_S4096x32x1024_S_d0_1_2 : S4096x32x1024.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024x256 .f32) (main_arg6 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1024x256 .f32 := Host.absf main_arg5
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4096x36x1024 .f32) (main_arg1 : FVec F S4096x32x1024 .f32) (main_arg2 : IVec S4096 32) (main_arg3 : FVec F S256x1024 .f32) (main_arg4 : FVec F S256 .f32) (main_arg5 : FVec F S1024x256 .f32) (main_arg6 : FVec F S1024 .f32) : IVec S_ 1 :=
  let main_v0 : FVec F S4096x36x1024 .f32 := Host.absf main_arg0
  let main_cst : FVec F S_ .f32 := constant S_ .f32 0x7F800000#32
  let main_v1 : FVec F S4096x36x1024 .f32 := broadcastInDim S4096x36x1024 ![] bcast_S_S4096x36x1024 main_cst
  let main_v2 : IVec S4096x36x1024 1 := cmpf .olt main_v0 main_v1
  let main_c : IVec S_ 1 := constantI S_ 1 1#1
  let main_v3 : IVec S_ 1 := (fun x v => Host.reduce IntOp.andi x v reducesTo_S4096x36x1024_S_d0_1_2 h_S_) main_v2 main_c
  let main_v4 : FVec F S4096x32x1024 .f32 := Host.absf main_arg1
  let main_cst_0 : FVec F S_ .f32 := constant S_ .f32 0x7F800000#32
  let main_v5 : FVec F S4096x32x1024 .f32 := broadcastInDim S4096x32x1024 ![] bcast_S_S4096x32x1024 main_cst_0
  let main_v6 : IVec S4096x32x1024 1 := cmpf .olt main_v4 main_v5
  let main_c_1 : IVec S_ 1 := constantI S_ 1 1#1
  let main_v7 : IVec S_ 1 := (fun x v => Host.reduce IntOp.andi x v reducesTo_S4096x32x1024_S_d0_1_2 h_S_) main_v6 main_c_1
  let main_v8 : IVec S_ 1 := andi main_v3 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S4096x36x1024 : Shape := ⟨3, ![4096, 36, 1024]⟩
abbrev S4096x32x1024 : Shape := ⟨3, ![4096, 32, 1024]⟩
abbrev S4096 : Shape := ⟨1, ![4096]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S4096x1x1024 : Shape := ⟨3, ![4096, 1, 1024]⟩
abbrev S4096x1024 : Shape := ⟨2, ![4096, 1024]⟩
abbrev S4096x256 : Shape := ⟨2, ![4096, 256]⟩
abbrev S1x256 : Shape := ⟨2, ![1, 256]⟩
abbrev S1x1024 : Shape := ⟨2, ![1, 1024]⟩
abbrev S_ : Shape := ⟨0, ![]⟩
abbrev S4096x1 : Shape := ⟨2, ![4096, 1]⟩
abbrev S4096x4096 : Shape := ⟨2, ![4096, 4096]⟩
abbrev S512x1024 : Shape := ⟨2, ![512, 1024]⟩
abbrev S512x512 : Shape := ⟨2, ![512, 512]⟩

abbrev nBuf : Space → Nat
  | .hbm => 37
  | .vmem => 8
  | .smem => 0
  | _ => 0

abbrev bufTy : (tb : Table) → Fin (tcTables nBuf tb) → BufTy
  | .hbm, ⟨0, _⟩ => ⟨S4096x36x1024, .f32⟩
  | .hbm, ⟨1, _⟩ => ⟨S4096x32x1024, .f32⟩
  | .hbm, ⟨2, _⟩ => ⟨S4096, .i32⟩
  | .hbm, ⟨3, _⟩ => ⟨S256x1024, .f32⟩
  | .hbm, ⟨4, _⟩ => ⟨S256, .f32⟩
  | .hbm, ⟨5, _⟩ => ⟨S1024x256, .f32⟩
  | .hbm, ⟨6, _⟩ => ⟨S1024, .f32⟩
  | .hbm, ⟨7, _⟩ => ⟨S4096x1x1024, .f32⟩
  | .hbm, ⟨8, _⟩ => ⟨S4096x1024, .f32⟩
  | .hbm, ⟨9, _⟩ => ⟨S1024x256, .f32⟩
  | .hbm, ⟨10, _⟩ => ⟨S4096x256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S256x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | _, _ => ⟨S4096x36x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S4096x32x1024_S4096x1x1024_0_0_0 : S4096x32x1024.Slices ![0, 0, 0] S4096x1x1024
  shapeCasts_S4096x1x1024_S4096x1024 : S4096x1x1024.ShapeCasts S4096x1024
  transposes_S256x1024_S1024x256_1_0 : S256x1024.Transposes [1, 0] S1024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  reducesTo_S4096x36x1024_S4096x1024_d1 : S4096x36x1024.ReducesTo [1] S4096x1024
  h_S_ : 0 < S_.numel
  reducesTo_S4096x1024_S4096_d1 : S4096x1024.ReducesTo [1] S4096
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  dot_S4096x1024_S1024x256_S4096x256_1_0_0_1_n_n_wf : DotDims.WF S4096x1024 S1024x256 S4096x256 [1] [0] [0] [1] [] []
  dot_S4096x256_S256x1024_S4096x1024_1_0_0_1_n_n_wf : DotDims.WF S4096x256 S256x1024 S4096x1024 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v18) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x36x1024 : Shape := ⟨3, ![4096, 36, 1024]⟩
abbrev S4096x32x1024 : Shape := ⟨3, ![4096, 32, 1024]⟩
abbrev S4096 : Shape := ⟨1, ![4096]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S4096x1x1024 : Shape := ⟨3, ![4096, 1, 1024]⟩
abbrev S4096x1024 : Shape := ⟨2, ![4096, 1024]⟩
abbrev S4096x256 : Shape := ⟨2, ![4096, 256]⟩
abbrev S1x256 : Shape := ⟨2, ![1, 256]⟩
abbrev S1x1024 : Shape := ⟨2, ![1, 1024]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x36x1024, .f32⟩
  | .hbm, ⟨1, _⟩ => ⟨S4096x32x1024, .f32⟩
  | .hbm, ⟨2, _⟩ => ⟨S4096, .i32⟩
  | .hbm, ⟨3, _⟩ => ⟨S256x1024, .f32⟩
  | .hbm, ⟨4, _⟩ => ⟨S256, .f32⟩
  | .hbm, ⟨5, _⟩ => ⟨S1024x256, .f32⟩
  | .hbm, ⟨6, _⟩ => ⟨S1024, .f32⟩
  | .hbm, ⟨7, _⟩ => ⟨S4096x1x1024, .f32⟩
  | .hbm, ⟨8, _⟩ => ⟨S4096x1024, .f32⟩
  | .hbm, ⟨9, _⟩ => ⟨S1024x256, .f32⟩
  | .hbm, ⟨10, _⟩ => ⟨S4096x256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S256x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x4096, .f32⟩
  | .hbm, ⟨38, _⟩ => ⟨S4096x4096, .f32⟩
  | .hbm, ⟨39, _⟩ => ⟨S4096x1024, .f32⟩
  | .hbm, ⟨40, _⟩ => ⟨S4096x1024, .f32⟩
  | .hbm, ⟨41, _⟩ => ⟨S1024x4096, .f32⟩
  | .hbm, ⟨42, _⟩ => ⟨S4096x4096, .f32⟩
  | .hbm, ⟨43, _⟩ => ⟨S4096x4096, .f32⟩
  | .hbm, ⟨44, _⟩ => ⟨S4096x4096, .f32⟩
  | _, _ => ⟨S4096x36x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  slices_S4096x32x1024_S4096x1x1024_0_0_0 : S4096x32x1024.Slices ![0, 0, 0] S4096x1x1024
  shapeCasts_S4096x1x1024_S4096x1024 : S4096x1x1024.ShapeCasts S4096x1024
  transposes_S256x1024_S1024x256_1_0 : S256x1024.Transposes [1, 0] S1024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  reducesTo_S4096x36x1024_S4096x1024_d1 : S4096x36x1024.ReducesTo [1] S4096x1024
  h_S_ : 0 < S_.numel
  reducesTo_S4096x1024_S4096_d1 : S4096x1024.ReducesTo [1] S4096
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  dot_S4096x1024_S1024x256_S4096x256_1_0_0_1_n_n_wf : DotDims.WF S4096x1024 S1024x256 S4096x256 [1] [0] [0] [1] [] []
  dot_S4096x256_S256x1024_S4096x1024_1_0_0_1_n_n_wf : DotDims.WF S4096x256 S256x1024 S4096x1024 [1] [0] [0] [1] [] []
  dot_S4096x1024_S1024x4096_S4096x4096_1_0_0_1_n_n_wf : DotDims.WF S4096x1024 S1024x4096 S4096x4096 [1] [0] [0] [1] [] []

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.GatedCosine.lean ====
/-
  The function both programs compute, stated once over literal shapes and free of either program.

  Three arrays of 4096 rows by 1024 features enter: `s` (per image, the sum of its region features), `g` (per caption,
  the sigmoid gate) and `ch` (per caption, the first-word features divided by their Euclidean norm). The result at
  (image p, caption q) is the cosine of the gated image vector `g_q ⊙ s_p` with `ch_q`:

      ( Σ_k s[p,k] · (g[q,k] · ch[q,k]) )  /  √( Σ_k (s[p,k] · s[p,k]) · (g[q,k] · g[q,k]) )

  over the extended reals, with the quotient and the root the idealized ones (`Ideal.div`, `Ideal.sqrt`), so that the
  corner cases (a zero denominator, an infinite sum) are whatever those two functions say; nothing here needs the entries
  to be finite. The kernel reaches this value block by block (512 images by 512 captions per grid point), the reference
  through two whole matrix products with the caption-side operand transposed; both sum over the same feature index in the
  same factor order, so they meet on this one term.
-/
import Idealize.ShloMosaic.PureOps.Ideal
import Idealize.ShloMosaic.Lib.ValueIdx

noncomputable section

namespace Cert.GatedCosine

open Idealize.ShloMosaic Idealize.ShloMosaic.ValueIdx

/-- 4096 rows (images, or captions) of 1024 features. -/
abbrev SRows : Shape := ⟨2, ![4096, 1024]⟩
/-- One similarity per (image, caption) pair. -/
abbrev SPairs : Shape := ⟨2, ![4096, 4096]⟩

/-- Row `p`, feature `k` of a rows-by-features array. -/
abbrev at2 (p : Fin 4096) (k : Fin 1024) : SRows.Idx := ix2 p k

/-- The numerator at (image `p`, caption `q`): the inner product of the image sums with the gated unit caption vector. -/
def numer (s g ch : SRows.Idx → EReal) (p q : Fin 4096) : EReal :=
  ∑ k : Fin 1024, s (at2 p k) * (g (at2 q k) * ch (at2 q k))

/-- The squared norm of the gated image vector at (image `p`, caption `q`). -/
def normSq (s g : SRows.Idx → EReal) (p q : Fin 4096) : EReal :=
  ∑ k : Fin 1024, (s (at2 p k) * s (at2 p k)) * (g (at2 q k) * g (at2 q k))

/-- The gated cosine similarities, one per (image, caption) pair. -/
def sims (s g ch : SRows.Idx → EReal) : SPairs.Idx → EReal := fun i =>
  Ideal.div (numer s g ch ⟨(i 0).val, (i 0).isLt⟩ ⟨(i 1).val, (i 1).isLt⟩)
    (Ideal.sqrt (normSq s g ⟨(i 0).val, (i 0).isLt⟩ ⟨(i 1).val, (i 1).isLt⟩))

end Cert.GatedCosine

end
-- ==== Proof.BlockBody.lean ====
/-
  What the kernel body stores at one entry of its 512-by-512 output block, at the idealized instance.

  The body loads three 512-by-1024 blocks — `x0`, 512 rows of the image sums; `x1`, 512 rows of the gate; `x2`, 512 rows of
  the unit caption vectors — and stores the quotient of two matrix products, each contracting the 1024 features of BOTH
  operands (no transpose is materialized: the dimension numbers contract axis 1 with axis 1) into a zero accumulator:
  the rows of `x0` against the rows of `x1 ⊙ x2`, over the root of the rows of `x0 ⊙ x0` against the rows of `x1 ⊙ x1`.
  The changes of format in front of the products are the identity on the extended reals, and a product into a zero
  accumulator is the plain sum over the feature index. So entry (r, c) of the block is

      ( Σ_k x0[r,k] · (x1[c,k] · x2[c,k]) )  /  √( Σ_k (x0[r,k] · x0[r,k]) · (x1[c,k] · x1[c,k]) ).
-/
import proofs.«155433_j55267639165045_1_alg».proof.Proof.Gen.KernelIdeal.Skeleton
import proofs.«155433_j55267639165045_1_alg».proof.Proof.GatedCosine
import Idealize.ShloMosaic.Lib.ValueIdx
import Idealize.ShloMosaic.Lib.Pipeline.Value
import Idealize.ShloMosaic.PureOps.Ideal.Laws

noncomputable section

namespace Cert.KernelIdeal.BlockBody

open Cert.KernelIdeal Cert.KernelIdeal.Gen Idealize.ShloMosaic Idealize.ShloMosaic.ValueIdx

/-! ## The operand indices of a product that contracts the features of both operands -/

/-- The left operand's row is the output entry's row. -/
theorem lhs_row (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- The left operand's feature is the contraction index. -/
theorem lhs_feat (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- The right operand's row is the output entry's COLUMN: the right operand is read row by row, not transposed. -/
theorem rhs_row (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- The right operand's feature is the contraction index. -/
theorem rhs_feat (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Row `i 0` (the entry's row), feature `k` of a 512-by-1024 block. -/
abbrev rowOf (i : S512x512.Idx) (k : Fin 1024) : S512x1024.Idx := fun a => match a with
  | ⟨0, _⟩ => ⟨(i 0).val, (i 0).isLt⟩
  | ⟨1, _⟩ => ⟨k.val, k.isLt⟩
/-- Row `i 1` (the entry's column), feature `k` of a 512-by-1024 block. -/
abbrev colOf (i : S512x512.Idx) (k : Fin 1024) : S512x1024.Idx := fun a => match a with
  | ⟨0, _⟩ => ⟨(i 1).val, (i 1).isLt⟩
  | ⟨1, _⟩ => ⟨k.val, k.isLt⟩

/-- A product of two 512-by-1024 blocks along the features of both, into the zero accumulator, at entry `i`: the sum over
    the features of row `i 0` of the left block times row `i 1` of the right block. -/
theorem rowsProduct_apply {φ₁ φ₂ : FTy} (a : FVec Ideal S512x1024 φ₁) (b : FVec Ideal S512x1024 φ₂) (i : S512x512.Idx) :
    matmul dot_S512x1024_S512x1024_S512x512_1_1_0_0_n_n none a b (constant S512x512 .f32 0x00000000#32) i
      = ∑ k : Fin 1024, a (rowOf i k) * b (colOf i k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx i ((ValueIdx.contrEquiv1 dot_S512x1024_S512x1024_S512x512_1_1_0_0_n_n 1024 rfl rfl).symm k) = rowOf i k := funext fun a => Fin.ext (by
    match a with
    | ⟨0, _⟩ => exact lhs_row _ _
    | ⟨1, _⟩ => exact (lhs_feat _ _).trans hk)
  have er : dot_S512x1024_S512x1024_S512x512_1_1_0_0_n_n.rhsIdx i ((ValueIdx.contrEquiv1 dot_S512x1024_S512x1024_S512x512_1_1_0_0_n_n 1024 rfl rfl).symm k) = colOf i k := funext fun a => Fin.ext (by
    match a with
    | ⟨0, _⟩ => exact rhs_row _ _
    | ⟨1, _⟩ => exact (rhs_feat _ _).trans hk)
  rw [el, er]

/-! ## The stored value -/

/-- Entry `i` of what the body stores, from its three loaded blocks. -/
theorem stored_apply (x0 x1 x2 : Vec Ideal S512x1024 .f32) (i : S512x512.Idx) :
    k0_pay1 (F := Ideal) x0 x1 x2 i
      = Ideal.div (∑ k : Fin 1024, x0 (rowOf i k) * (x1 (colOf i k) * x2 (colOf i k)))
          (Ideal.sqrt (∑ k : Fin 1024, (x0 (rowOf i k) * x0 (rowOf i k)) * (x1 (colOf i k) * x1 (colOf i k)))) := by
  unfold k0_pay1
  simp only [shapeCast_self]
  show Ideal.div (matmul (F := Ideal) dot_S512x1024_S512x1024_S512x512_1_1_0_0_n_n none (truncf .bf16 x0 bitsLt_bf16_f32) (truncf .bf16 (mulf x1 x2) bitsLt_bf16_f32) (constant S512x512 .f32 0x00000000#32) i)
      (Ideal.sqrt (matmul (F := Ideal) dot_S512x1024_S512x1024_S512x512_1_1_0_0_n_n none (truncf .bf16 (mulf x0 x0) bitsLt_bf16_f32) (truncf .bf16 (mulf x1 x1) bitsLt_bf16_f32) (constant S512x512 .f32 0x00000000#32) i)) = _
  rw [rowsProduct_apply, rowsProduct_apply]
  rfl

/-- So, whenever the three loaded blocks are rows of three 4096-by-1024 arrays `s`, `g`, `ch` — the left block's row of
    entry `j` being row `i 0` of `s`, the other two blocks' row being row `i 1` of `g` and of `ch` —, entry `j` of what the
    body stores is the gated cosine of those arrays at `i`. -/
theorem stored_is_sims (s g ch : Cert.GatedCosine.SRows.Idx → EReal) (x0 x1 x2 : Vec Ideal S512x1024 .f32) (j : S512x512.Idx)
    (i : Cert.GatedCosine.SPairs.Idx)
    (h0 : ∀ k : Fin 1024, x0 (rowOf j k) = s (Cert.GatedCosine.at2 ⟨(i 0).val, (i 0).isLt⟩ k))
    (h1 : ∀ k : Fin 1024, x1 (colOf j k) = g (Cert.GatedCosine.at2 ⟨(i 1).val, (i 1).isLt⟩ k))
    (h2 : ∀ k : Fin 1024, x2 (colOf j k) = ch (Cert.GatedCosine.at2 ⟨(i 1).val, (i 1).isLt⟩ k)) :
    k0_pay1 (F := Ideal) x0 x1 x2 j = Cert.GatedCosine.sims s g ch i := by
  rw [stored_apply]
  simp only [h0, h1, h2]
  rfl

end Cert.KernelIdeal.BlockBody

end
-- ==== Proof.KernelCosine.lean ====
/-
  The kernel's result array is the gated cosine of the three arrays its region is launched on.

  The region runs an 8-by-8 grid; point (a, b) reads rows 512a … 512a+511 of the image sums (its first window moves with
  the first grid coordinate) and rows 512b … 512b+511 of the gate and of the unit caption vectors (the second and third
  windows move with the second coordinate), all 1024 features of each, and writes the 512-by-512 block (a, b) of the
  result. Entry (r, c) of that block is array entry (512a + r, 512b + c); the body's stored value there pairs row 512a + r
  of the image sums with row 512b + c of the caption-side arrays, which is exactly what the gated cosine pairs at that
  array entry. The 64 blocks tile the 4096-by-4096 result — the block holding entry (p, q) is (p / 512, q / 512) — so the
  whole array ends at `GatedCosine.sims`.
-/
import proofs.«155433_j55267639165045_1_alg».proof.Proof.Gen.KernelIdeal.Value
import proofs.«155433_j55267639165045_1_alg».proof.Proof.BlockBody
import proofs.«155433_j55267639165045_1_alg».proof.Proof.GatedCosine

noncomputable section

namespace Cert.KernelIdeal.Cosine

open Cert.KernelIdeal Cert.KernelIdeal.Gen Cert.KernelIdeal.BlockBody Idealize.ShloMosaic Idealize.ShloMosaic.TcCoe Idealize.SL.Sem
open Idealize.ShloMosaic.Pipeline (Dat)
open Cert.GatedCosine

variable (m : (ℓ : Loc nD τ sig) → Buf (Elt Ideal) ℓ) (ρ : Dev nD → PrngReg)

theorem origin_zero : (![0, 0] : Fin 2 → Nat) = fun _ => 0 := funext fun a => by fin_cases a <;> rfl

/-- Where each window's block sits, decided over the 64 grid points: the image window's row block is the output's row
    block, the two caption windows' row block is the output's COLUMN block, no input is split along the features, and the
    output's block coordinates stay below 8. -/
theorem block_coords : ∀ t : Fin cfg0.N,
    win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0
    ∧ win0_3.index t (0 : Fin 2) ≤ 7
    ∧ win0_3.index t (1 : Fin 2) ≤ 7 :=
  (by decide +kernel : ∀ t : Fin grid0.N, _)

/-- Every one of the 8 × 8 output blocks is some grid point's. -/
theorem block_onto : ∀ (a b : Fin 8), ∃ t : Fin cfg0.N, win0_3.index t = ![a.val, b.val] :=
  (by decide +kernel : ∀ (a b : Fin 8), ∃ t : Fin grid0.N, win0_3.index t = ![a.val, b.val])

/-- The array entry that entry `j` of point `t`'s output block is. -/
abbrev entryOf (t : Fin cfg0.N) (j : S512x512.Idx) : S4096x4096.Idx := ((cfg0.win 3).blk t).view.emb j

/-! ## The input blocks are rows of the staged arrays -/

/-- The image window's block at point `t`: its row for output entry `j` is the image-sum row of that entry's array row. -/
theorem read_sums (c : Dev nD) (t : Fin cfg0.N) (j : S512x512.Idx) (k : Fin 1024) :
    iblk m c 0 t (rowOf j k) = V m c main_v18 (at2 ⟨(entryOf t j 0).val, (entryOf t j 0).isLt⟩ k) := by
  obtain ⟨e0, e1, e2, e3, e4, e5, e6, e7⟩ := block_coords t
  show V m c main_v18 (((cfg0.win 0).blk t).view.emb (rowOf j k)) = V m c main_v18 (at2 ⟨(entryOf t j 0).val, (entryOf t j 0).isLt⟩ k)
  refine congrArg (V m c main_v18) (funext fun a => Fin.ext ?_)
  match a with
  | ⟨0, _⟩ => show win0_0.index t (0 : Fin 2) * 512 + 1 * (j 0).val = win0_3.index t (0 : Fin 2) * 512 + 1 * (j 0).val; omega
  | ⟨1, _⟩ => show win0_0.index t (1 : Fin 2) * 1024 + 1 * k.val = k.val; omega

/-- The gate window's block: its row for output entry `j` is the gate row of that entry's array COLUMN. -/
theorem read_gate (c : Dev nD) (t : Fin cfg0.N) (j : S512x512.Idx) (k : Fin 1024) :
    iblk m c 1 t (colOf j k) = V m c main_v17 (at2 ⟨(entryOf t j 1).val, (entryOf t j 1).isLt⟩ k) := by
  obtain ⟨e0, e1, e2, e3, e4, e5, e6, e7⟩ := block_coords t
  show V m c main_v17 (((cfg0.win 1).blk t).view.emb (colOf j k)) = V m c main_v17 (at2 ⟨(entryOf t j 1).val, (entryOf t j 1).isLt⟩ k)
  refine congrArg (V m c main_v17) (funext fun a => Fin.ext ?_)
  match a with
  | ⟨0, _⟩ => show win0_1.index t (0 : Fin 2) * 512 + 1 * (j 1).val = win0_3.index t (1 : Fin 2) * 512 + 1 * (j 1).val; omega
  | ⟨1, _⟩ => show win0_1.index t (1 : Fin 2) * 1024 + 1 * k.val = k.val; omega

/-- The unit-caption window's block, likewise. -/
theorem read_unit (c : Dev nD) (t : Fin cfg0.N) (j : S512x512.Idx) (k : Fin 1024) :
    iblk m c 2 t (colOf j k) = V m c main_v24 (at2 ⟨(entryOf t j 1).val, (entryOf t j 1).isLt⟩ k) := by
  obtain ⟨e0, e1, e2, e3, e4, e5, e6, e7⟩ := block_coords t
  show V m c main_v24 (((cfg0.win 2).blk t).view.emb (colOf j k)) = V m c main_v24 (at2 ⟨(entryOf t j 1).val, (entryOf t j 1).isLt⟩ k)
  refine congrArg (V m c main_v24) (funext fun a => Fin.ext ?_)
  match a with
  | ⟨0, _⟩ => show win0_2.index t (0 : Fin 2) * 512 + 1 * (j 1).val = win0_3.index t (1 : Fin 2) * 512 + 1 * (j 1).val; omega
  | ⟨1, _⟩ => show win0_2.index t (1 : Fin 2) * 1024 + 1 * k.val = k.val; omega

/-! ## What each point writes back, and the whole array -/

/-- What point `t` writes back is block `t` of the gated cosine of the staged arrays. -/
theorem flushed_is_sims (c : Dev nD) (t : Fin cfg0.N) :
    (dats m 0 c).flushed 3 t
      = ((cfg0.win 3).blk t).view.read (Elt Ideal) (sims (V m c main_v18) (V m c main_v17) (V m c main_v24)) := by
  rw [Cert.KernelIdeal.Value.flushed3]
  unfold out0_3
  rw [View.canon_unit_zero origin_zero]
  simp only [View.ld_unit_zero (S := S512x1024) origin_zero]
  funext j
  show k0_pay1 (F := Ideal) (iblk m c 0 t) (iblk m c 1 t) (iblk m c 2 t) j
    = sims (V m c main_v18) (V m c main_v17) (V m c main_v24) (entryOf t j)
  exact stored_is_sims (V m c main_v18) (V m c main_v17) (V m c main_v24) (iblk m c 0 t) (iblk m c 1 t) (iblk m c 2 t) j (entryOf t j)
    (read_sums m c t j) (read_gate m c t j) (read_unit m c t j)

/-- An array entry is in point `t`'s block iff each coordinate is in the block's range on its axis. -/
theorem mem_block (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v25).slice (win0_3.rect t)).set ↔ _
  rw [View.set_slice_whole, Rect.mem_set_unit]
  exact Iff.rfl

/-- The blocks tile the result: entry (p, q) is in block (p / 512, q / 512). -/
theorem tiled (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := block_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The result array after the run. -/
theorem final_is_sims (c : Dev nD) :
    (dats m 0 c).arrAt 3 cfg0.N = sims (V m c main_v18) (V m c main_v17) (V m c main_v24) :=
  (dats m 0 c).arrAt_eq_of_cover 3 (sims (V m c main_v18) (V m c main_v17) (V m c main_v24)) (fun t _ => flushed_is_sims m c t) tiled

/-- The kernel's run: every weakly fair execution ends with the result array at the gated cosine of the staged arrays and
    the arguments as launched. -/
theorem run : θ_run defs (onTc (τ := τ) (main (F := Ideal))) ⟨m, fun _ => 0, ρ⟩ fun r => ∀ c : Dev nD,
      r.2.mem ((c : Thread nD τ).loc main_v25) = sims (V m c main_v18) (V m c main_v17) (V m c main_v24)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_is_sims m c), (h c).2⟩) (Cert.KernelIdeal.Value.run_blocks m ρ)

end Cert.KernelIdeal.Cosine

end
-- ==== Proof.RefCosine.lean ====
/-
  The reference's result is the gated cosine of its own three intermediate arrays.

  The reference multiplies the gate by the unit caption vectors (and the gate by itself), TRANSPOSES each product to
  features-by-captions, and takes two whole matrix products with the image sums (and their squares) on the left,
  contracting the left operand's features with the transposed operand's first axis. Read at (image p, caption q) each
  product is a sum over the feature k of the left operand at (p, k) times the transposed operand at (k, q), which is the
  untransposed product at (q, k). The quotient and the root on the host are, on the extended reals, the same two functions
  the kernel uses. So the result is `GatedCosine.sims` of the image sums, the gate and the unit caption vectors — the
  reference's stages 18, 17 and 24.
-/
import proofs.«155433_j55267639165045_1_alg».proof.Proof.Gen.ReferenceIdeal.Read
import proofs.«155433_j55267639165045_1_alg».proof.Proof.GatedCosine

noncomputable section

namespace Cert.ReferenceIdeal.Cosine

open Cert.ReferenceIdeal Cert.ReferenceIdeal.Gen Cert.ReferenceIdeal.Read Idealize.ShloMosaic Idealize.ShloMosaic.ValueIdx
open Cert.GatedCosine

/-- The left operand of either product at output (p, q) and feature k is read at (p, k). -/
theorem left_at (i : S4096x4096.Idx) (k : Fin 1024) : lidx_main_v27 i k = at2 ⟨(i 0).val, (i 0).isLt⟩ k :=
  funext fun a => Fin.ext (by match a with | ⟨0, _⟩ => rfl | ⟨1, _⟩ => rfl)
/-- The transposed right operand at (k, q) is the untransposed array at (q, k). -/
theorem right_at (i : S4096x4096.Idx) (k : Fin 1024) : idx_main_v26 (ridx_main_v27 i k) = at2 ⟨(i 1).val, (i 1).isLt⟩ k :=
  funext fun a => Fin.ext (by match a with | ⟨0, _⟩ => rfl | ⟨1, _⟩ => rfl)
/-- The same two readings for the product of the squares. -/
theorem left_sq_at (i : S4096x4096.Idx) (k : Fin 1024) : lidx_main_v31 i k = at2 ⟨(i 0).val, (i 0).isLt⟩ k :=
  funext fun a => Fin.ext (by match a with | ⟨0, _⟩ => rfl | ⟨1, _⟩ => rfl)
theorem right_sq_at (i : S4096x4096.Idx) (k : Fin 1024) : idx_main_v30 (ridx_main_v31 i k) = at2 ⟨(i 1).val, (i 1).isLt⟩ k :=
  funext fun a => Fin.ext (by match a with | ⟨0, _⟩ => rfl | ⟨1, _⟩ => rfl)

/-- The reference's result array is the gated cosine of its stages: the image sums (stage 18), the gate (stage 17) and the
    unit caption vectors (stage 24), each a function of the arguments. -/
theorem result_is_sims (x0 : (⟨S4096x36x1024, .f32⟩ : BufTy).Contents (Elt Ideal)) (x1 : (⟨S4096x32x1024, .f32⟩ : BufTy).Contents (Elt Ideal))
    (x3 : (⟨S256x1024, .f32⟩ : BufTy).Contents (Elt Ideal)) (x4 : (⟨S256, .f32⟩ : BufTy).Contents (Elt Ideal))
    (x5 : (⟨S1024x256, .f32⟩ : BufTy).Contents (Elt Ideal)) (x6 : (⟨S1024, .f32⟩ : BufTy).Contents (Elt Ideal)) :
    val_main_v33 (F := Ideal) x0 x1 x3 x4 x5 x6
      = sims (val_main_v18 (F := Ideal) x0) (val_main_v17 (F := Ideal) x1 x3 x4 x5 x6) (val_main_v24 (F := Ideal) x1) := by
  funext i
  rw [val_main_v33_apply, val_main_v32_apply, val_main_v27_apply, val_main_v31_apply]
  simp only [val_main_v26_apply, val_main_v25_apply, val_main_v30_apply, val_main_v29_apply, val_main_v28_apply]
  simp only [left_at, right_at, left_sq_at, right_sq_at, Ideal.hostDivf_def, Ideal.hostUnary_sqrt_def, Ideal.mulf_def]
  rfl

end Cert.ReferenceIdeal.Cosine

end
-- ==== Proof.Staged.lean ====
/-
  The three arrays the kernel's region is launched on are the reference's own intermediate arrays.

  Before its one region the kernel's entry point runs, on the host, the same twenty-nine operations the reference begins
  with: the first-word slice of the captions, the two linear layers and the sigmoid (the gate), the sum over the 36
  regions of each image, and the first-word features divided by the root of their sum of squares. The region's operands
  are three of their results. Operation by operation the two printed programs agree (same operations, same operands, same
  two constants 1.0 and 0.0), so each operand, as a term of the argument arrays, IS the reference's stage of the same
  name; nothing is computed to see it.
-/
import proofs.«155433_j55267639165045_1_alg».proof.Proof.Gen.KernelIdeal.Frame
import proofs.«155433_j55267639165045_1_alg».proof.Proof.Gen.ReferenceIdeal.Read
import Idealize.ShloMosaic.Lib.StableHlo.Run

noncomputable section

namespace Cert.KernelIdeal.Staged

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The region's first operand: each image's features summed over its regions. -/
theorem sums_eq (c : Dev nD) :
    (V m c main_v18 : S4096x1024.Idx → EReal)
      = Cert.ReferenceIdeal.Read.val_main_v18 (F := Ideal) (m ((c : Thread nD τ).loc main_arg0)) := by
  dsimp only [V, hostOps0]
  after_results
  rfl

/-- The region's second operand: the sigmoid gate of each caption. -/
theorem gate_eq (c : Dev nD) :
    (V m c main_v17 : S4096x1024.Idx → EReal)
      = Cert.ReferenceIdeal.Read.val_main_v17 (F := Ideal) (m ((c : Thread nD τ).loc main_arg1)) (m ((c : Thread nD τ).loc main_arg3))
          (m ((c : Thread nD τ).loc main_arg4)) (m ((c : Thread nD τ).loc main_arg5)) (m ((c : Thread nD τ).loc main_arg6)) := by
  dsimp only [V, hostOps0]
  after_results
  rfl

/-- The region's third operand: each caption's first-word features over their Euclidean norm. -/
theorem unit_eq (c : Dev nD) :
    (V m c main_v24 : S4096x1024.Idx → EReal)
      = Cert.ReferenceIdeal.Read.val_main_v24 (F := Ideal) (m ((c : Thread nD τ).loc main_arg1)) := by
  dsimp only [V, hostOps0]
  after_results
  rfl

end Cert.KernelIdeal.Staged

end
-- ==== Proof.lean ====
/-
  The kernel and its reference compute one function, and both run.

  Both entry points begin with the same host operations: from the captions' first-word features `cap0` the gate
  `g = sigmoid((cap0 · W_redᵀ + b_red) · W_kpᵀ + b_kp)` and the unit vectors `ch = cap0 / ‖cap0‖`, and from the images the
  region sums `s`. The result at (image p, caption q) is the cosine of `g_q ⊙ s_p` with `ch_q`,

      ( Σ_k s[p,k] · (g[q,k] · ch[q,k]) )  /  √( Σ_k (s[p,k] · s[p,k]) · (g[q,k] · g[q,k]) ).

  The reference gets it from two whole matrix products with the caption-side operand transposed (Proof/RefCosine.lean);
  the kernel from an 8-by-8 grid of 512-by-512 blocks, each the same two products contracted along the features of both
  operands into zero accumulators, behind changes of float format that are the identity on the extended reals
  (Proof/BlockBody.lean, Proof/KernelCosine.lean). Both sums run over the same feature index with the factors in the same
  order, and the quotient and root are the same functions of extended reals on the host and in the kernel, so the two
  results are one term of the three arrays `s`, `g`, `ch` (Proof/GatedCosine.lean) — and those arrays are the same terms of
  the arguments in both programs (Proof/Staged.lean). No law of arithmetic beyond this is used, so finiteness of the inputs
  is never opened.

  The frames of the kernel programs are their generated frame runs; the reference's frame is its generated run with the
  result dropped; the idealization rewrote nothing, so `preserves` is trivial.
-/
import proofs.«155433_j55267639165045_1_alg».proof.Defs
import proofs.«155433_j55267639165045_1_alg».proof.Proof.Gen.Kernel
import proofs.«155433_j55267639165045_1_alg».proof.Proof.Gen.Kernel.Skeleton
import proofs.«155433_j55267639165045_1_alg».proof.Proof.Gen.Kernel.Launch
import proofs.«155433_j55267639165045_1_alg».proof.Proof.Gen.Kernel.Points
import proofs.«155433_j55267639165045_1_alg».proof.Proof.Gen.Kernel.Frame
import proofs.«155433_j55267639165045_1_alg».proof.Proof.Gen.KernelIdeal
import proofs.«155433_j55267639165045_1_alg».proof.Proof.Gen.KernelIdeal.Skeleton
import proofs.«155433_j55267639165045_1_alg».proof.Proof.Gen.KernelIdeal.Launch
import proofs.«155433_j55267639165045_1_alg».proof.Proof.Gen.KernelIdeal.Points
import proofs.«155433_j55267639165045_1_alg».proof.Proof.Gen.KernelIdeal.Frame
import proofs.«155433_j55267639165045_1_alg».proof.Proof.Gen.ReferenceIdeal
import proofs.«155433_j55267639165045_1_alg».proof.Proof.Gen.Pre_finite_inputs
import proofs.«155433_j55267639165045_1_alg».proof.Proof.Gen.KernelIdeal.Value
import proofs.«155433_j55267639165045_1_alg».proof.Proof.Gen.ReferenceIdeal.Run
import proofs.«155433_j55267639165045_1_alg».proof.Proof.Gen.ReferenceIdeal.Read
import proofs.«155433_j55267639165045_1_alg».proof.Proof.GatedCosine
import proofs.«155433_j55267639165045_1_alg».proof.Proof.KernelCosine
import proofs.«155433_j55267639165045_1_alg».proof.Proof.RefCosine
import proofs.«155433_j55267639165045_1_alg».proof.Proof.Staged
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the gated cosine of the kernel's three staged
    arrays: the kernel by its blocks, the reference because its result is the gated cosine of its own stages, which are
    the kernel's staged arrays once the arguments are identified. -/
theorem algebraic : Cert.algebraic_KernelIdeal_ReferenceIdeal := by
  intro m ρ m' ρ' _ hagree
  refine ⟨fun c => Cert.GatedCosine.sims (Cert.KernelIdeal.Gen.V m c Cert.KernelIdeal.main_v18)
      (Cert.KernelIdeal.Gen.V m c Cert.KernelIdeal.main_v17) (Cert.KernelIdeal.Gen.V m c Cert.KernelIdeal.main_v24),
    Cert.KernelIdeal.Cosine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.Cosine.result_is_sims,
    (hagree c).1, (hagree c).2.1, (hagree c).2.2.2.1, (hagree c).2.2.2.2.1, (hagree c).2.2.2.2.2.1, (hagree c).2.2.2.2.2.2]
  show _ = Cert.GatedCosine.sims (Cert.KernelIdeal.Gen.V m c Cert.KernelIdeal.main_v18)
    (Cert.KernelIdeal.Gen.V m c Cert.KernelIdeal.main_v17) (Cert.KernelIdeal.Gen.V m c Cert.KernelIdeal.main_v24)
  rw [Cert.KernelIdeal.Staged.sums_eq m c, Cert.KernelIdeal.Staged.gate_eq m c, Cert.KernelIdeal.Staged.unit_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
